-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x768 : Shape := ⟨3, ![128, 1024, 768]⟩
abbrev S96x768 : Shape := ⟨2, ![96, 768]⟩
abbrev S96 : Shape := ⟨1, ![96]⟩
abbrev S1024x96 : Shape := ⟨2, ![1024, 96]⟩
abbrev S_ : Shape := ⟨0, ![]⟩

class Facts : Prop where
  bcast_S_S128x1024x768 : S_.BroadcastsInDim S128x1024x768 (![] : Fin 0 → Fin S128x1024x768.rank)
  reducesTo_S128x1024x768_S_d0_1_2 : S128x1024x768.ReducesTo [0, 1, 2] S_
  h_S_ : 0 < S_.numel
  bcast_S_S96x768 : S_.BroadcastsInDim S96x768 (![] : Fin 0 → Fin S96x768.rank)
  reducesTo_S96x768_S_d0_1 : S96x768.ReducesTo [0, 1] S_
  bcast_S_S96 : S_.BroadcastsInDim S96 (![] : Fin 0 → Fin S96.rank)
  reducesTo_S96_S_d0 : S96.ReducesTo [0] S_
  bcast_S_S1024x96 : S_.BroadcastsInDim S1024x96 (![] : Fin 0 → Fin S1024x96.rank)
  reducesTo_S1024x96_S_d0_1 : S1024x96.ReducesTo [0, 1] S_

variable [Facts]

def fn_part1 {F : FTy → Type} [FloatOps F] (main_v13 : IVec S_ 1) (main_v16 : IVec S1024x96 1) : IVec S_ 1 :=
  let main_c_5 : IVec S_ 1 := constantI S_ 1 1#1
  let main_v17 : IVec S_ 1 := (fun x v => Host.reduce IntOp.andi x v reducesTo_S1024x96_S_d0_1 h_S_) main_v16 main_c_5
  let main_v18 : IVec S_ 1 := andi main_v13 main_v17
  main_v18

def fn {F : FTy → Type} [FloatOps F] (main_arg0 : FVec F S128x1024x768 .f32) (main_arg1 : FVec F S96x768 .f32) (main_arg2 : FVec F S96 .f32) (main_arg3 : FVec F S1024x96 .f32) : IVec S_ 1 :=
  let main_v0 : FVec F S128x1024x768 .f32 := Host.absf main_arg0
  let main_cst : FVec F S_ .f32 := constant S_ .f32 0x7F800000#32
  let main_v1 : FVec F S128x1024x768 .f32 := broadcastInDim S128x1024x768 ![] bcast_S_S128x1024x768 main_cst
  let main_v2 : IVec S128x1024x768 1 := cmpf .olt main_v0 main_v1
  let main_c : IVec S_ 1 := constantI S_ 1 1#1
  let main_v3 : IVec S_ 1 := (fun x v => Host.reduce IntOp.andi x v reducesTo_S128x1024x768_S_d0_1_2 h_S_) main_v2 main_c
  let main_v4 : FVec F S96x768 .f32 := Host.absf main_arg1
  let main_cst_0 : FVec F S_ .f32 := constant S_ .f32 0x7F800000#32
  let main_v5 : FVec F S96x768 .f32 := broadcastInDim S96x768 ![] bcast_S_S96x768 main_cst_0
  let main_v6 : IVec S96x768 1 := cmpf .olt main_v4 main_v5
  let main_c_1 : IVec S_ 1 := constantI S_ 1 1#1
  let main_v7 : IVec S_ 1 := (fun x v => Host.reduce IntOp.andi x v reducesTo_S96x768_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S1024x96 .f32 := Host.absf main_arg3
  let main_cst_4 : FVec F S_ .f32 := constant S_ .f32 0x7F800000#32
  let main_v15 : FVec F S1024x96 .f32 := broadcastInDim S1024x96 ![] bcast_S_S1024x96 main_cst_4
  let main_v16 : IVec S1024x96 1 := cmpf .olt main_v14 main_v15
  fn_part1 (F := F) main_v13 main_v16
-- ==== Kernel.lean ====
abbrev S128x1024x768 : Shape := ⟨3, ![128, 1024, 768]⟩
abbrev S96x768 : Shape := ⟨2, ![96, 768]⟩
abbrev S96 : Shape := ⟨1, ![96]⟩
abbrev S1024x96 : Shape := ⟨2, ![1024, 96]⟩
abbrev S1x96 : Shape := ⟨2, ![1, 96]⟩
abbrev S128x1024x96 : Shape := ⟨3, ![128, 1024, 96]⟩
abbrev S2x1024x768 : Shape := ⟨3, ![2, 1024, 768]⟩
abbrev S2x1024x96 : Shape := ⟨3, ![2, 1024, 96]⟩
abbrev S2048x768 : Shape := ⟨2, ![2048, 768]⟩
abbrev S2048x96 : Shape := ⟨2, ![2048, 96]⟩
abbrev S1x1x96 : Shape := ⟨3, ![1, 1, 96]⟩
abbrev S1x1024x96 : Shape := ⟨3, ![1, 1024, 96]⟩

abbrev nBuf : Space → Nat
  | .hbm => 6
  | .vmem => 7
  | .smem => 0
  | _ => 0

abbrev bufTy : (tb : Table) → Fin (tcTables nBuf tb) → BufTy
  | .hbm, ⟨0, _⟩ => ⟨S128x1024x768, .f32⟩
  | .hbm, ⟨1, _⟩ => ⟨S96x768, .f32⟩
  | .hbm, ⟨2, _⟩ => ⟨S96, .f32⟩
  | .hbm, ⟨3, _⟩ => ⟨S1024x96, .f32⟩
  | .hbm, ⟨4, _⟩ => ⟨S1x96, .f32⟩
  | .hbm, ⟨5, _⟩ => ⟨S128x1024x96, .f32⟩
  | .local _ .vmem, ⟨0, _⟩ => ⟨S2x1024x768, .f32⟩
  | .local _ .vmem, ⟨1, _⟩ => ⟨S2x1024x768, .f32⟩
  | .local _ .vmem, ⟨2, _⟩ => ⟨S96x768, .f32⟩
  | .local _ .vmem, ⟨3, _⟩ => ⟨S1x96, .f32⟩
  | .local _ .vmem, ⟨4, _⟩ => ⟨S1024x96, .f32⟩
  | .local _ .vmem, ⟨5, _⟩ => ⟨S2x1024x96, .f32⟩
  | .local _ .vmem, ⟨6, _⟩ => ⟨S2x1024x96, .f32⟩
  | _, _ => ⟨S128x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1024x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S96_S1x96 : S96.ShapeCasts S1x96
  inb_S2x1024x768_S2x1024x768_0_0_0 : ∀ a, (![0, 0, 0] : Fin 3 → Nat) a + S2x1024x768.size a ≤ S2x1024x768.size a
  h_S2x1024x768 : 0 < S2x1024x768.numel
  shapeCasts_S2x1024x768_S2048x768 : S2x1024x768.ShapeCasts S2048x768
  inb_S96x768_S96x768_0_0 : ∀ a, (![0, 0] : Fin 2 → Nat) a + S96x768.size a ≤ S96x768.size a
  h_S96x768 : 0 < S96x768.numel
  shapeCasts_S2048x96_S2x1024x96 : S2048x96.ShapeCasts S2x1024x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  shapeCasts_S1x96_S1x1x96 : S1x96.ShapeCasts S1x1x96
  broadcasts_S1x1x96_S2x1024x96 : S1x1x96.Broadcasts S2x1024x96
  inb_S1024x96_S1024x96_0_0 : ∀ a, (![0, 0] : Fin 2 → Nat) a + S1024x96.size a ≤ S1024x96.size a
  h_S1024x96 : 0 < S1024x96.numel
  shapeCasts_S1024x96_S1x1024x96 : S1024x96.ShapeCasts S1x1024x96
  broadcasts_S1x1024x96_S2x1024x96 : S1x1024x96.Broadcasts S2x1024x96
  inb_S2x1024x96_S2x1024x96_0_0_0 : ∀ a, (![0, 0, 0] : Fin 3 → Nat) a + S2x1024x96.size a ≤ S2x1024x96.size a
  h_S2x1024x96 : 0 < S2x1024x96.numel
  dot_S2048x768_S96x768_S2048x96_1_1_0_0_n_n_wf : DotDims.WF S2048x768 S96x768 S2048x96 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x768.size a ≤ S128x1024x768.size a
  hwx0_0 : ∀ i : grid0.Coords, EltTy.bits .f32 = 32 ∨ (Rect.block (s := S128x1024x768) S2x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x768.size a ≤ S96x768.size a
  hwx0_1 : ∀ i : grid0.Coords, EltTy.bits .f32 = 32 ∨ (Rect.block (s := S96x768) S96x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x96.size a ≤ S1024x96.size a
  hwx0_3 : ∀ i : grid0.Coords, EltTy.bits .f32 = 32 ∨ (Rect.block (s := S1024x96) S1024x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1024x96.size a ≤ S128x1024x96.size a
  hwx0_4 : ∀ i : grid0.Coords, EltTy.bits .f32 = 32 ∨ (Rect.block (s := S128x1024x96) S2x1024x96.size (cc0_transform_4 i) (hinb0_4 i)).WholeWords (EltTy.packing .f32)

variable [Facts₀]

def dot_S2048x768_S96x768_S2048x96_1_1_0_0_n_n : DotDims S2048x768 S96x768 S2048x96 where
  lhsContracting := [1]
  rhsContracting := [1]
  lhsNonContracting := [0]
  rhsNonContracting := [0]
  lhsBatch := []
  rhsBatch := []
  wf := dot_S2048x768_S96x768_S2048x96_1_1_0_0_n_n_wf

abbrev win0_0 : Pipeline.Window sig grid0 :=
  Pipeline.Window.ofSpec (Memref.whole main_arg0) S2x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x1024x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x1024x768 : Shape := ⟨3, ![128, 1024, 768]⟩
abbrev S96x768 : Shape := ⟨2, ![96, 768]⟩
abbrev S96 : Shape := ⟨1, ![96]⟩
abbrev S1024x96 : Shape := ⟨2, ![1024, 96]⟩
abbrev S1024 : Shape := ⟨1, ![1024]⟩
abbrev S128x1024x96 : Shape := ⟨3, ![128, 1024, 96]⟩
abbrev S1x1x96 : Shape := ⟨3, ![1, 1, 96]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1x1024x96 : Shape := ⟨3, ![1, 1024, 96]⟩

abbrev nBuf : Space → Nat
  | .hbm => 35
  | .vmem => 0
  | .smem => 0
  | _ => 0

abbrev bufTy : (tb : Table) → Fin (tcTables nBuf tb) → BufTy
  | .hbm, ⟨0, _⟩ => ⟨S128x1024x768, .f32⟩
  | .hbm, ⟨1, _⟩ => ⟨S96x768, .f32⟩
  | .hbm, ⟨2, _⟩ => ⟨S96, .f32⟩
  | .hbm, ⟨3, _⟩ => ⟨S1024x96, .f32⟩
  | .hbm, ⟨4, _⟩ => ⟨S1024, .i32⟩
  | .hbm, ⟨5, _⟩ => ⟨S128x1024x96, .f32⟩
  | .hbm, ⟨6, _⟩ => ⟨S1x1x96, .f32⟩
  | .hbm, ⟨7, _⟩ => ⟨S128x1024x96, .f32⟩
  | .hbm, ⟨8, _⟩ => ⟨S128x1024x96, .f32⟩
  | .hbm, ⟨9, _⟩ => ⟨S_, .i32⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1, .i32⟩
  | .hbm, ⟨18, _⟩ => ⟨S_, .i32⟩
  | .hbm, ⟨19, _⟩ => ⟨S1024x1, .i32⟩
  | .hbm, ⟨20, _⟩ => ⟨S1024x1, .i1⟩
  | .hbm, ⟨21, _⟩ => ⟨S1x1, .i32⟩
  | .hbm, ⟨22, _⟩ => ⟨S1024x1, .i32⟩
  | .hbm, ⟨23, _⟩ => ⟨S1024x1, .i1⟩
  | .hbm, ⟨24, _⟩ => ⟨S1024x1, .i1⟩
  | .hbm, ⟨25, _⟩ => ⟨S_, .i1⟩
  | .hbm, ⟨26, _⟩ => ⟨S1024, .i1⟩
  | .hbm, ⟨27, _⟩ => ⟨S1024x96, .f32⟩
  | .hbm, ⟨28, _⟩ => ⟨S1024x96, .i1⟩
  | .hbm, ⟨29, _⟩ => ⟨S_, .f32⟩
  | .hbm, ⟨30, _⟩ => ⟨S1024x96, .f32⟩
  | .hbm, ⟨31, _⟩ => ⟨S1024x96, .f32⟩
  | .hbm, ⟨32, _⟩ => ⟨S1x1024x96, .f32⟩
  | .hbm, ⟨33, _⟩ => ⟨S128x1024x96, .f32⟩
  | .hbm, ⟨34, _⟩ => ⟨S128x1024x96, .f32⟩
  | _, _ => ⟨S128x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩

abbrev nD : Nat := 1
abbrev τ : Topo := Topo.v7x

variable {F : FTy → Type} [FloatOps F]

class Facts₀ : Prop where
  bcast_S96_S1x1x96_2 : S96.BroadcastsInDim S1x1x96 (![2] : Fin 1 → Fin S1x1x96.rank)
  bcast_S1x1x96_S128x1024x96_0_1_2 : S1x1x96.BroadcastsInDim S128x1024x96 (![0, 1, 2] : Fin 3 → Fin S128x1024x96.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S1024x96_0 : S1024.BroadcastsInDim S1024x96 (![0] : Fin 1 → Fin S1024x96.rank)
  bcast_S_S1024x96 : S_.BroadcastsInDim S1024x96 (![] : Fin 0 → Fin S1024x96.rank)
  bcast_S1024x96_S1x1024x96_1_2 : S1024x96.BroadcastsInDim S1x1024x96 (![1, 2] : Fin 2 → Fin S1x1024x96.rank)
  bcast_S1x1024x96_S128x1024x96_0_1_2 : S1x1024x96.BroadcastsInDim S128x1024x96 (![0, 1, 2] : Fin 3 → Fin S128x1024x96.rank)
  dot_S128x1024x768_S96x768_S128x1024x96_2_1_01_0_n_n_wf : DotDims.WF S128x1024x768 S96x768 S128x1024x96 [2] [1] [0, 1] [0] [] []
  gather_S1024x96_S1024x1_S1024x96_1_0_n_n_0_1_196_wf : GatherDims.WF S1024x96 S1024x1 S1024x96 [1] [0] [] [0] [] 1 ![1, 96]

variable [Facts₀]

def dot_S128x1024x768_S96x768_S128x1024x96_2_1_01_0_n_n : DotDims S128x1024x768 S96x768 S128x1024x96 where
  lhsContracting := [2]
  rhsContracting := [1]
  lhsNonContracting := [0, 1]
  rhsNonContracting := [0]
  lhsBatch := []
  rhsBatch := []
  wf := dot_S128x1024x768_S96x768_S128x1024x96_2_1_01_0_n_n_wf
def gather_S1024x96_S1024x1_S1024x96_1_0_n_n_0_1_196 : GatherDims S1024x96 S1024x1 S1024x96 where
  offsetDims := [1]
  collapsedSliceDims := [0]
  operandBatchingDims := []
  startIndicesBatchingDims := []
  startIndexMap := [0]
  indexVectorDim := 1
  sliceSizes := ![1, 96]
  wf := gather_S1024x96_S1024x1_S1024x96_1_0_n_n_0_1_196_wf

class Facts : Prop extends Facts₀ where

variable [Facts]
-- ==== Proof.LibDotRows.lean ====
/-
  A matrix product against a stored [N, K] matrix, read at an index, on the extended reals.

  The dimension numbers contract the left operand's axis 1 with the right operand's axis 1 (no batch axis): an M×K
  matrix L against an N×K matrix W, the result M×N. Entry (p, q) of the product into a zero accumulator, and of the
  host's `dot_general` with the same numbers, is the sum over k of L[p,k] · W[q,k]: row p of L against row q of W.
  Generic in the three extents.
-/
import Idealize.ShloMosaic.PureOps.Ideal.Laws
import Idealize.ShloMosaic.Lib.ValueIdx

noncomputable section

open scoped BigOperators

namespace Cert.DotRows

open Idealize.ShloMosaic Idealize.ShloMosaic.ValueIdx

variable {M K N : Nat}

/-- The left operand's row coordinate is the result's row coordinate. -/
theorem lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction's one coordinate. -/
theorem lhs1 (i : (⟨2, ![M, N]⟩ : Shape).Idx) (q : (DotDims.transposedRhs M K N).contr.Idx) :
    ((DotDims.transposedRhs M K N).lhsIdx i q 1).val
      = (q ⟨0, Nat.lt_of_lt_of_eq Nat.one_pos (Eq.symm (rfl : (DotDims.transposedRhs M K N).contr.rank = 1))⟩).val :=
  (DotDims.transposedRhs M K N).lhsIdx_val_of_single rfl i q

/-- The right operand's row coordinate is the result's column coordinate. -/
theorem rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction's one coordinate. -/
theorem rhs1 (i : (⟨2, ![M, N]⟩ : Shape).Idx) (q : (DotDims.transposedRhs M K N).contr.Idx) :
    ((DotDims.transposedRhs M K N).rhsIdx i q 1).val
      = (q ⟨0, Nat.lt_of_lt_of_eq Nat.one_pos (Eq.symm (rfl : (DotDims.transposedRhs M K N).contr.rank = 1))⟩).val :=
  (DotDims.transposedRhs M K N).rhsIdx_val_of_single rfl i q

/-- The contraction's sum re-indexed by its one coordinate: row p of L against row q of W. -/
theorem sum_contr {φ₁ φ₂ : FTy} (L : FVec Ideal ⟨2, ![M, K]⟩ φ₁) (W : FVec Ideal ⟨2, ![N, K]⟩ φ₂) (p : Fin M) (q : Fin N) :
    (∑ k : (DotDims.transposedRhs M K N).contr.Idx,
        L ((DotDims.transposedRhs M K N).lhsIdx (ix2 p q) k) * W ((DotDims.transposedRhs M K N).rhsIdx (ix2 p q) k))
      = ∑ k : Fin K, L (ix2 p k) * W (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs0 _ _
      | ⟨1, _⟩ => exact (lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs0 _ _
      | ⟨1, _⟩ => exact (rhs1 _ _).trans hk)
  rw [el, er]

/-- The vector unit's product into the zero accumulator, at (p, q). -/
theorem matmul_zero_apply {φ₁ φ₂ : FTy} (prec : Option ContractPrecision) (L : FVec Ideal ⟨2, ![M, K]⟩ φ₁)
    (W : FVec Ideal ⟨2, ![N, K]⟩ φ₂) (p : Fin M) (q : Fin N) :
    FloatOps.matmul (DotDims.transposedRhs M K N) prec L W (constant ⟨2, ![M, N]⟩ .f32 0x00000000#32) (ix2 p q)
      = ∑ k : Fin K, L (ix2 p k) * W (ix2 q k) := by
  rw [Ideal.matmul_constant_zero_apply]
  exact sum_contr L W p q

/-- The host's product with the same dimension numbers, at (p, q). -/
theorem dotGeneral_apply {φ₁ φ₂ : FTy} (prec : Option ContractPrecision) (sched : HostSchedule) (L : FVec Ideal ⟨2, ![M, K]⟩ φ₁)
    (W : FVec Ideal ⟨2, ![N, K]⟩ φ₂) (p : Fin M) (q : Fin N) :
    FloatOps.dotGeneral (DotDims.transposedRhs M K N) prec sched L W (ix2 p q) = ∑ k : Fin K, L (ix2 p k) * W (ix2 q k) := by
  rw [Ideal.dotGeneral_apply]
  exact sum_contr L W p q

end Cert.DotRows

end
-- ==== Proof.Payload.lean ====
/-
  What the kernel body stores, read at an index, on the extended reals.

  The body loads a slab of two images (2 × 1024 × 768), flattens it to 2048 rows, multiplies the rows against the
  96 weight rows (contracting the 768 columns of both), folds the 2048 × 96 product back to 2 × 1024 × 96, adds the
  bias row broadcast over both leading axes, then adds the position table broadcast over the leading axis. Row
  a · 1024 + n of the flattened slab is patch (a, n), so entry (a, n, q) of the stored value is the inner product of
  patch (a, n) with weight row q, plus the bias at q, plus the table's entry (n, q).
-/
import proofs.«117790_g51075751084523_cont_8to1c4_36_5_alg».proof.Proof.Gen.KernelIdeal.Skeleton
import proofs.«117790_g51075751084523_cont_8to1c4_36_5_alg».proof.Proof.LibDotRows
import Idealize.ShloMosaic.Lib.Pipeline.Value
import Idealize.ShloMosaic.Lib.ValueLayout

noncomputable section

open scoped BigOperators

namespace Cert.PatchEncoder

open Cert.KernelIdeal Cert.KernelIdeal.Gen Idealize.ShloMosaic Idealize.ShloMosaic.ValueIdx

/-- The flattened slab's row a · 1024 + n is patch (a, n): the cast of 2 × 1024 × 768 to 2048 × 768 read at (row, k). -/
theorem flat_apply (x0 : FVec Ideal S2x1024x768 .f32) (a : Fin 2) (n : Fin 1024) (k : Fin 768) :
    shapeCast S2048x768 x0 shapeCasts_S2x1024x768_S2048x768 (ix2 (⟨a.val * 1024 + n.val, by omega⟩ : Fin 2048) k)
      = x0 (ix3 a n k) :=
  shapeCast_apply x0 _ _ _ (by
    rw [Shape.rowMajor_val_three, Shape.rowMajor_val_two]
    rfl)

/-- The product folded back to 2 × 1024 × 96, at (a, n, q): the inner product of patch (a, n) with weight row q. -/
theorem product_apply (x0 : FVec Ideal S2x1024x768 .f32) (x1 : FVec Ideal S96x768 .f32) (a : Fin 2) (n : Fin 1024) (q : Fin 96) :
    shapeCast S2x1024x96
        (matmul (F := Ideal) (φ₁ := .f32) (φ₂ := .f32) dot_S2048x768_S96x768_S2048x96_1_1_0_0_n_n none
          (shapeCast S2048x768 x0 shapeCasts_S2x1024x768_S2048x768) x1 (constant S2048x96 .f32 0x00000000#32))
        shapeCasts_S2048x96_S2x1024x96 (ix3 a n q)
      = ∑ k : Fin 768, x0 (ix3 a n k) * x1 (ix2 q k) := by
  rw [shapeCast_apply _ shapeCasts_S2048x96_S2x1024x96 (ix3 a n q) (ix2 (⟨a.val * 1024 + n.val, by omega⟩ : Fin 2048) q) (by
    rw [Shape.rowMajor_val_three, Shape.rowMajor_val_two]
    rfl)]
  refine (Cert.DotRows.matmul_zero_apply (M := 2048) (K := 768) (N := 96) none
    (shapeCast S2048x768 x0 shapeCasts_S2x1024x768_S2048x768) x1 ⟨a.val * 1024 + n.val, by omega⟩ q).trans ?_
  exact Finset.sum_congr rfl fun k _ => by rw [flat_apply]

/-- The bias row broadcast over both leading axes, at (a, n, q), is the bias at q. -/
theorem bias_apply (x2 : FVec Ideal S1x96 .f32) (a : Fin 2) (n : Fin 1024) (q : Fin 96) :
    broadcastTo S2x1024x96 (shapeCast S1x1x96 (shapeCast S1x96 x2 shapeCasts_S1x96_S1x96) shapeCasts_S1x96_S1x1x96)
        broadcasts_S1x1x96_S2x1024x96 (ix3 a n q)
      = x2 (ix2 (0 : Fin 1) q) := by
  rw [broadcastTo_apply _ broadcasts_S1x1x96_S2x1024x96 (ix3 a n q) (ix3 (0 : Fin 1) (0 : Fin 1) q) (fun c => by
    match c with
    | ⟨0, _⟩ => rfl
    | ⟨1, _⟩ => rfl
    | ⟨2, _⟩ => rfl)]
  rw [shapeCast_self]
  exact shapeCast_ab_1ab_apply x2 shapeCasts_S1x96_S1x1x96 (0 : Fin 1) (0 : Fin 1) q

/-- The position table broadcast over the leading axis, at (a, n, q), is the table's entry (n, q). -/
theorem table_apply (x3 : FVec Ideal S1024x96 .f32) (a : Fin 2) (n : Fin 1024) (q : Fin 96) :
    broadcastTo S2x1024x96 (shapeCast S1x1024x96 x3 shapeCasts_S1024x96_S1x1024x96) broadcasts_S1x1024x96_S2x1024x96 (ix3 a n q)
      = x3 (ix2 n q) := by
  rw [broadcastTo_apply _ broadcasts_S1x1024x96_S2x1024x96 (ix3 a n q) (ix3 (0 : Fin 1) n q) (fun c => by
    match c with
    | ⟨0, _⟩ => rfl
    | ⟨1, _⟩ => rfl
    | ⟨2, _⟩ => rfl)]
  exact shapeCast_ab_1ab_apply x3 shapeCasts_S1024x96_S1x1024x96 (0 : Fin 1) n q

/-- THE STORED VALUE at (a, n, q): ∑ₖ x0[a,n,k] · x1[q,k], then + x2[0,q], then + x3[n,q]. -/
theorem payload_apply (x0 : FVec Ideal S2x1024x768 .f32) (x1 : FVec Ideal S96x768 .f32) (x2 : FVec Ideal S1x96 .f32)
    (x3 : FVec Ideal S1024x96 .f32) (a : Fin 2) (n : Fin 1024) (q : Fin 96) :
    k0_pay1 (F := Ideal) x0 x1 x2 x3 (ix3 a n q)
      = (∑ k : Fin 768, x0 (ix3 a n k) * x1 (ix2 q k)) + x2 (ix2 (0 : Fin 1) q) + x3 (ix2 n q) := by
  unfold k0_pay1
  rw [addf_apply, addf_apply, product_apply, bias_apply, table_apply]

end Cert.PatchEncoder

end
-- ==== Proof.Encoded.lean ====
/-
  The patch encoder as ONE function of its four argument arrays, on the extended reals.

  For a batch of 128 images of 1024 patches of 768 numbers, a weight matrix of 96 rows of 768 numbers, a bias of 96
  numbers and a table of 1024 positions of 96 numbers, entry (a, n, q) of the encoding is the inner product of patch
  (a, n) with weight row q, plus bias q, plus the table's entry (n, q): a linear projection of every patch followed by
  the learned embedding of the patch's own position. The sum is grouped as ((product + bias) + position), the grouping
  both programs use, so no law of the extended reals beyond reading both sides is needed.
-/
import Idealize.ShloMosaic.PureOps.Ideal
import Idealize.ShloMosaic.Lib.ValueIdx

noncomputable section

open scoped BigOperators

namespace Cert.PatchEncoder

open Idealize.ShloMosaic Idealize.ShloMosaic.ValueIdx

/-- The encoding: entry (a, n, q) is ∑ₖ x[a,n,k] · w[q,k], then + b[q], then + pos[n,q]. -/
def encoded (x : FVec Ideal ⟨3, ![128, 1024, 768]⟩ .f32) (w : FVec Ideal ⟨2, ![96, 768]⟩ .f32)
    (b : FVec Ideal ⟨1, ![96]⟩ .f32) (pos : FVec Ideal ⟨2, ![1024, 96]⟩ .f32) : FVec Ideal ⟨3, ![128, 1024, 96]⟩ .f32 :=
  fun i => (∑ k : Fin 768, x (ix3 (i 0) (i 1) k) * w (ix2 (i 2) k)) + b (ix1 (i 2)) + pos (ix2 (i 1) (i 2))

/-- The encoding read at explicit coordinates. -/
theorem encoded_apply (x : FVec Ideal ⟨3, ![128, 1024, 768]⟩ .f32) (w : FVec Ideal ⟨2, ![96, 768]⟩ .f32)
    (b : FVec Ideal ⟨1, ![96]⟩ .f32) (pos : FVec Ideal ⟨2, ![1024, 96]⟩ .f32) (a : Fin 128) (n : Fin 1024) (q : Fin 96) :
    encoded x w b pos (ix3 a n q) = (∑ k : Fin 768, x (ix3 a n k) * w (ix2 q k)) + b (ix1 q) + pos (ix2 n q) := rfl

end Cert.PatchEncoder

end
-- ==== Proof.KernelValue.lean ====
/-
  What the kernel leaves in its result array: the encoding of the four argument arrays.

  The kernel walks the batch two images at a time: grid point t stages images 2t and 2t + 1 (a 2 × 1024 × 768 slab), the
  whole weight matrix, the bias as a 1 × 96 row (the bias vector reshaped before the launch) and the whole position
  table, and writes back a 2 × 1024 × 96 slab at images 2t, 2t + 1. Entry (a, n, q) of what point t writes back is the
  body's stored value at (a, n, q) of those blocks, which is the encoding at image 2t + a, patch n, column q; the 64
  slabs tile the result array, so after the run the array is the encoding everywhere.
-/
import proofs.«117790_g51075751084523_cont_8to1c4_36_5_alg».proof.Proof.Gen.KernelIdeal.Value
import proofs.«117790_g51075751084523_cont_8to1c4_36_5_alg».proof.Proof.Payload
import proofs.«117790_g51075751084523_cont_8to1c4_36_5_alg».proof.Proof.Encoded
import Idealize.ShloMosaic.Lib.StableHlo.Run

noncomputable section

open scoped BigOperators

namespace Cert.PatchEncoder.Ker

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The encoding of the four argument arrays as launched, on core `c`. -/
abbrev enc (c : Dev nD) : S128x1024x96.Idx → Elt Ideal .f32 :=
  encoded (m ((c : Thread nD τ).loc main_arg0)) (m ((c : Thread nD τ).loc main_arg1)) (m ((c : Thread nD τ).loc main_arg2))
    (m ((c : Thread nD τ).loc main_arg3))

/-- The bias row the region finds: the bias vector reshaped to 1 × 96, so its entry (0, q) is the bias at q. -/
theorem bias_row (c : Dev nD) (q : Fin 96) :
    (V m c main_v0 : S1x96.Idx → Elt Ideal .f32) (ix2 (0 : Fin 1) q) = m ((c : Thread nD τ).loc main_arg2) (ix1 q) := by
  have e : (V m c main_v0 : S1x96.Idx → Elt Ideal .f32)
      = shapeCast S1x96 (m ((c : Thread nD τ).loc main_arg2)) shapeCasts_S96_S1x96 := by
    dsimp only [V, hostOps0]; after_results; rfl
  rw [e]
  exact shapeCast_a_1a_apply _ shapeCasts_S96_S1x96 (0 : Fin 1) q

/-- The printed index maps over the 64 grid points: the slab windows' block index is (t, 0, 0), the whole-array
    windows' is the origin. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Every pair of images is some grid point's. -/
theorem index_onto : ∀ s : Fin 64, ∃ t : Fin cfg0.N, t.val = s.val :=
  (by decide +kernel : ∀ s : Fin 64, ∃ t : Fin grid0.N, t.val = s.val)

/-- Image 2t + a is an image of the batch. -/
theorem image_lt (t : Fin cfg0.N) (a : Fin 2) : 2 * t.val + a.val < 128 := by
  have ht : t.val < 64 := lt_of_lt_of_eq t.isLt N_0
  omega

/-- Where the blocks of point t sit in their arrays. -/
theorem emb_out (t : Fin cfg0.N) (a : Fin 2) (n : Fin 1024) (q : Fin 96) :
    ((cfg0.win 4).blk t).view.emb (ix3 a n q) = ix3 (⟨2 * t.val + a.val, image_lt t a⟩ : Fin 128) n q := by
  obtain ⟨-, -, -, -, -, -, -, -, -, h0, h1, h2⟩ := index_facts t
  funext d; apply Fin.ext
  match d with
  | ⟨0, _⟩ => show win0_4.index t (0 : Fin 3) * 2 + 1 * a.val = 2 * t.val + a.val; omega
  | ⟨1, _⟩ => show win0_4.index t (1 : Fin 3) * 1024 + 1 * n.val = n.val; omega
  | ⟨2, _⟩ => show win0_4.index t (2 : Fin 3) * 96 + 1 * q.val = q.val; omega

theorem emb_patch (t : Fin cfg0.N) (a : Fin 2) (n : Fin 1024) (k : Fin 768) :
    ((cfg0.win 0).blk t).view.emb (ix3 a n k) = ix3 (⟨2 * t.val + a.val, image_lt t a⟩ : Fin 128) n k := by
  obtain ⟨h0, h1, h2, -⟩ := index_facts t
  funext d; apply Fin.ext
  match d with
  | ⟨0, _⟩ => show win0_0.index t (0 : Fin 3) * 2 + 1 * a.val = 2 * t.val + a.val; omega
  | ⟨1, _⟩ => show win0_0.index t (1 : Fin 3) * 1024 + 1 * n.val = n.val; omega
  | ⟨2, _⟩ => show win0_0.index t (2 : Fin 3) * 768 + 1 * k.val = k.val; omega

theorem emb_weight (t : Fin cfg0.N) (q : Fin 96) (k : Fin 768) :
    ((cfg0.win 1).blk t).view.emb (ix2 q k) = ix2 q k := by
  obtain ⟨-, -, -, h0, h1, -⟩ := index_facts t
  funext d; apply Fin.ext
  match d with
  | ⟨0, _⟩ => show win0_1.index t (0 : Fin 2) * 96 + 1 * q.val = q.val; omega
  | ⟨1, _⟩ => show win0_1.index t (1 : Fin 2) * 768 + 1 * k.val = k.val; omega

theorem emb_bias (t : Fin cfg0.N) (q : Fin 96) :
    ((cfg0.win 2).blk t).view.emb (ix2 (0 : Fin 1) q) = ix2 (0 : Fin 1) q := by
  obtain ⟨-, -, -, -, -, h0, h1, -⟩ := index_facts t
  funext d; apply Fin.ext
  match d with
  | ⟨0, _⟩ => show win0_2.index t (0 : Fin 2) * 1 + 1 * 0 = 0; omega
  | ⟨1, _⟩ => show win0_2.index t (1 : Fin 2) * 96 + 1 * q.val = q.val; omega

theorem emb_table (t : Fin cfg0.N) (n : Fin 1024) (q : Fin 96) :
    ((cfg0.win 3).blk t).view.emb (ix2 n q) = ix2 n q := by
  obtain ⟨-, -, -, -, -, -, -, h0, h1, -⟩ := index_facts t
  funext d; apply Fin.ext
  match d with
  | ⟨0, _⟩ => show win0_3.index t (0 : Fin 2) * 1024 + 1 * n.val = n.val; omega
  | ⟨1, _⟩ => show win0_3.index t (1 : Fin 2) * 96 + 1 * q.val = q.val; omega

/-- Point t's block of the patches at (a, n, k) is the patch array at image 2t + a. -/
theorem read_patch (c : Dev nD) (t : Fin cfg0.N) (a : Fin 2) (n : Fin 1024) (k : Fin 768) :
    iblk m c 0 t (ix3 a n k)
      = m ((c : Thread nD τ).loc main_arg0) (ix3 (⟨2 * t.val + a.val, image_lt t a⟩ : Fin 128) n k) := by
  show V m c main_arg0 (((cfg0.win 0).blk t).view.emb (ix3 a n k)) = _
  rw [emb_patch, V_main_arg0]

/-- Every point's block of the weights is the weight matrix. -/
theorem read_weight (c : Dev nD) (t : Fin cfg0.N) (q : Fin 96) (k : Fin 768) :
    iblk m c 1 t (ix2 q k) = m ((c : Thread nD τ).loc main_arg1) (ix2 q k) := by
  show V m c main_arg1 (((cfg0.win 1).blk t).view.emb (ix2 q k)) = _
  rw [emb_weight, V_main_arg1]

/-- Every point's block of the bias row, at (0, q), is the bias at q. -/
theorem read_bias (c : Dev nD) (t : Fin cfg0.N) (q : Fin 96) :
    iblk m c 2 t (ix2 (0 : Fin 1) q) = m ((c : Thread nD τ).loc main_arg2) (ix1 q) := by
  show V m c main_v0 (((cfg0.win 2).blk t).view.emb (ix2 (0 : Fin 1) q)) = _
  rw [emb_bias]
  exact bias_row m c q

/-- Every point's block of the position table is the table. -/
theorem read_table (c : Dev nD) (t : Fin cfg0.N) (n : Fin 1024) (q : Fin 96) :
    iblk m c 3 t (ix2 n q) = m ((c : Thread nD τ).loc main_arg3) (ix2 n q) := by
  show V m c main_arg3 (((cfg0.win 3).blk t).view.emb (ix2 n q)) = _
  rw [emb_table, V_main_arg3]

/-- WHAT POINT t WRITES BACK is its slab of the encoding. -/
theorem flushed_eq (c : Dev nD) (t : Fin cfg0.N) :
    (dats m 0 c).flushed 4 t = ((cfg0.win 4).blk t).view.read (Elt Ideal) (enc m c) := by
  rw [Cert.KernelIdeal.Value.flushed4]
  unfold out0_4
  rw [View.canon_unit_zero zero3]
  simp only [View.ld_unit_zero (S := S2x1024x768) zero3, View.ld_unit_zero (S := S96x768) zero2,
    View.ld_unit_zero (S := S1x96) zero2, View.ld_unit_zero (S := S1024x96) zero2]
  funext j
  obtain ⟨a, n, q, rfl⟩ : ∃ (a : Fin 2) (n : Fin 1024) (q : Fin 96), j = ix3 a n q := ⟨j 0, j 1, j 2, eq_ix3 j⟩
  show k0_pay1 (F := Ideal) (iblk m c 0 t) (iblk m c 1 t) (iblk m c 2 t) (iblk m c 3 t) (ix3 a n q)
    = enc m c (((cfg0.win 4).blk t).view.emb (ix3 a n q))
  refine (payload_apply (iblk m c 0 t) (iblk m c 1 t) (iblk m c 2 t) (iblk m c 3 t) a n q).trans ?_
  rw [emb_out, read_bias, read_table]
  simp only [read_patch, read_weight]
  rfl

/-- An index of the result array is in point t's slab iff each coordinate is in the slab's range on its axis. -/
theorem mem_slab (t : Fin cfg0.N) (i : S128x1024x96.Idx) :
    i ∈ ((cfg0.win 4).blk t).view.set ↔ ∀ d : Fin 3, win0_4.index t d * S2x1024x96.size d ≤ (i d).val
      ∧ (i d).val < win0_4.index t d * S2x1024x96.size d + S2x1024x96.size d := by
  show i ∈ ((View.whole main_v1).slice (win0_4.rect t)).set ↔ _
  rw [View.set_slice_whole, Rect.mem_set_unit]
  exact Iff.rfl

/-- The 64 slabs cover the result array: image i₀ lies in the slab of point i₀ / 2. -/
theorem cover (i : S128x1024x96.Idx) :
    ∃ t : Fin cfg0.N, (cfg0.win 4).flush t = true ∧ i ∈ ((cfg0.win 4).blk t).view.set := by
  have hi0 : (i 0).val < 128 := (i 0).isLt
  have hi1 : (i 1).val < 1024 := (i 1).isLt
  have hi2 : (i 2).val < 96 := (i 2).isLt
  obtain ⟨t, ht⟩ := index_onto ⟨(i 0).val / 2, by omega⟩
  have ht' : t.val = (i 0).val / 2 := ht
  obtain ⟨-, -, -, -, -, -, -, -, -, h0, h1, h2⟩ := index_facts t
  refine ⟨t, flush0_4 t, ?_⟩
  rw [mem_slab]
  intro d
  match d with
  | ⟨0, _⟩ => show win0_4.index t (0 : Fin 3) * 2 ≤ (i 0).val ∧ (i 0).val < win0_4.index t (0 : Fin 3) * 2 + 2; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 96 ≤ (i 2).val ∧ (i 2).val < win0_4.index t (2 : Fin 3) * 96 + 96; omega

/-- THE RESULT ARRAY after the run is the encoding. -/
theorem final (c : Dev nD) : (dats m 0 c).arrAt 4 cfg0.N = enc m c :=
  (dats m 0 c).arrAt_eq_of_cover 4 (enc m c) (fun t _ => flushed_eq m c t) cover

/-- The kernel's run: every weakly fair execution terminates with the result array at the encoding of the argument
    arrays, which are left as they were. -/
theorem run : θ_run defs (onTc (τ := τ) (main (F := Ideal))) ⟨m, fun _ => 0, ρ⟩ fun r => ∀ c : Dev nD,
      r.2.mem ((c : Thread nD τ).loc main_v1) = enc m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.PatchEncoder.Ker

end
-- ==== Proof.RefRun.lean ====
/-
  The reference program's run, read back.

  The reference is a straight line of thirty-three array operations: the position numbers 0 … 1023, the batched
  product of every patch with every weight row, the bias broadcast in two steps and added, the table lookup
  at the position numbers (a function of twenty-three operations: a negative number would be wrapped by 1024, the rows
  are gathered, and a row whose wrapped number falls outside 0 … 1023 would be replaced by a not-a-number filler),
  the looked-up table broadcast in two steps and added. Listing the operations in order, every execution ends with
  the result buffer holding the operations' composition applied to the four argument arrays, which are left as they
  were.
-/
import proofs.«117790_g51075751084523_cont_8to1c4_36_5_alg».proof.Proof.Gen.ReferenceIdeal
import Idealize.ShloMosaic.Lib.StableHlo.Run

noncomputable section

namespace Cert.PatchEncoder.Ref

open Cert.ReferenceIdeal Cert.ReferenceIdeal.Gen Idealize.ShloMosaic Idealize.ShloMosaic.TcCoe Idealize.SL.Sem
open Idealize.ShloMosaic.StableHlo

variable {F : FTy → Type} [FloatOps F]

/-! ## The composition, as functions of arrays -/

/-- A position number, wrapped: a negative number has 1024 added. -/
def wrapped (i : IVec S1024 32) : IVec S1024 32 :=
  select (cmpi .slt i (broadcastInDim S1024 ![] bcast_S_S1024 (constantI S_ 32 0#32)))
    (addi i (broadcastInDim S1024 ![] bcast_S_S1024 (constantI S_ 32 1024#32))) i

/-- The wrapped numbers as a column: the gather's start indices. -/
def startCol (i : IVec S1024 32) : IVec S1024x1 32 :=
  broadcastInDim S1024x1 ![0] bcast_S1024_S1024x1_0 (wrapped i)

/-- Per position, whether its wrapped number lies in 0 … 1023. -/
def inTable (i : IVec S1024 32) : IVec S1024 1 :=
  Host.reduce IntOp.andi
    (andi (cmpi .sge (startCol i) (broadcastInDim S1024x1 ![] bcast_S_S1024x1 (constantI S_ 32 0#32)))
      (cmpi .sle (startCol i)
        (broadcastInDim S1024x1 ![0, 1] bcast_S1x1_S1024x1_0_1
          (broadcastInDim S1x1 ![1] bcast_S1_S1x1_1 (constantI S1 32 1023#32)))))
    (constantI S_ 1 1#1) reducesTo_S1024x1_S1024_d1 h_S_

/-- The table's rows looked up at the position numbers `i`: the gathered row where the wrapped number lies in the table,
    the filler elsewhere. -/
def lookup (pos : FVec F S1024x96 .f32) (i : IVec S1024 32) : FVec F S1024x96 .f32 :=
  select (broadcastInDim S1024x96 ![0] bcast_S1024_S1024x96_0 (inTable i))
    (Host.gather gather_S1024x96_S1024x1_S1024x96_1_0_n_n_0_1_196 pos (startCol i))
    (broadcastInDim S1024x96 ![] bcast_S_S1024x96 (constant S_ .f32 0x7FC00000#32))

/-- The reference's result as one term of the four argument arrays: the batched product, plus the bias broadcast over
    images and patches, plus the table looked up at 0 … 1023 broadcast over images. -/
def result (x : FVec F S128x1024x768 .f32) (w : FVec F S96x768 .f32) (b : FVec F S96 .f32) (pos : FVec F S1024x96 .f32) :
    FVec F S128x1024x96 .f32 :=
  addf
    (addf (Host.dotGeneral dot_S128x1024x768_S96x768_S128x1024x96_2_1_01_0_n_n none x w)
      (broadcastInDim S128x1024x96 ![0, 1, 2] bcast_S1x1x96_S128x1024x96_0_1_2
        (broadcastInDim S1x1x96 ![2] bcast_S96_S1x1x96_2 b)))
    (broadcastInDim S128x1024x96 ![0, 1, 2] bcast_S1x1024x96_S128x1024x96_0_1_2
      (broadcastInDim S1x1024x96 ![1, 2] bcast_S1024x96_S1x1024x96_1_2 (lookup pos (iotaInDim S1024 32 0))))

/-! ## The program as a list of operations -/

/-- The thirty-three operations, in order, the lookup function's and its select function's written at their calls. -/
abbrev ops : List (HloOp τ sig (Elt F)) :=
  [ nullary main_v0 (iotaInDim S1024 32 0),
    binary main_arg0 main_arg1 main_v1 ((fun l r => Host.dotGeneral dot_S128x1024x768_S96x768_S128x1024x96_2_1_01_0_n_n none l r) : (⟨S128x1024x768, .f32⟩ : BufTy).Contents (Elt F) → (⟨S96x768, .f32⟩ : BufTy).Contents (Elt F) → (⟨S128x1024x96, .f32⟩ : BufTy).Contents (Elt F)),
    unary main_arg2 main_v2 (broadcastInDim S1x1x96 ![2] bcast_S96_S1x1x96_2 : (⟨S96, .f32⟩ : BufTy).Contents (Elt F) → (⟨S1x1x96, .f32⟩ : BufTy).Contents (Elt F)),
    unary main_v2 main_v3 (broadcastInDim S128x1024x96 ![0, 1, 2] bcast_S1x1x96_S128x1024x96_0_1_2 : (⟨S1x1x96, .f32⟩ : BufTy).Contents (Elt F) → (⟨S128x1024x96, .f32⟩ : BufTy).Contents (Elt F)),
    binary main_v1 main_v3 main_v4 (addf : (⟨S128x1024x96, .f32⟩ : BufTy).Contents (Elt F) → (⟨S128x1024x96, .f32⟩ : BufTy).Contents (Elt F) → (⟨S128x1024x96, .f32⟩ : BufTy).Contents (Elt F)),
    TRef.nullary main_call0.c (constantI S_ 32 0#32),
    TRef.unary main_call0.c main_call0.v0 (broadcastInDim S1024 ![] bcast_S_S1024),
    TRef.binary (.of main_v0) main_call0.v0 main_call0.v1 (cmpi .slt),
    TRef.nullary main_call0.c_0 (constantI S_ 32 1024#32),
    TRef.unary main_call0.c_0 main_call0.v2 (broadcastInDim S1024 ![] bcast_S_S1024),
    TRef.binary (.of main_v0) main_call0.v2 main_call0.v3 addi,
    TRef.ternary main_call0.v1 main_call0.v3 (.of main_v0) main_call0.call0.v0 select,
    TRef.unary main_call0.call0.v0 main_call0.v5 (broadcastInDim S1024x1 ![0] bcast_S1024_S1024x1_0),
    TRef.nullary main_call0.c_1 (constantI S1 32 1023#32),
    TRef.nullary main_call0.c_2 (constantI S_ 32 0#32),
    TRef.unary main_call0.c_2 main_call0.v6 (broadcastInDim S1024x1 ![] bcast_S_S1024x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1024x1 ![0, 1] bcast_S1x1_S1024x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x1_S1024_d1 h_S_),
    TRef.binary (.of main_arg3) main_call0.v5 main_call0.v13 (fun x i => Host.gather gather_S1024x96_S1024x1_S1024x96_1_0_n_n_0_1_196 x i),
    TRef.unary main_call0.v12 main_call0.v14 (broadcastInDim S1024x96 ![0] bcast_S1024_S1024x96_0),
    TRef.nullary main_call0.cst (constant S_ .f32 0x7FC00000#32),
    TRef.unary main_call0.cst main_call0.v15 (broadcastInDim S1024x96 ![] bcast_S_S1024x96),
    TRef.ternary main_call0.v14 main_call0.v13 main_call0.v15 main_call0.v16 select,
    unary main_v5 main_v6 (broadcastInDim S1x1024x96 ![1, 2] bcast_S1024x96_S1x1024x96_1_2 : (⟨S1024x96, .f32⟩ : BufTy).Contents (Elt F) → (⟨S1x1024x96, .f32⟩ : BufTy).Contents (Elt F)),
    unary main_v6 main_v7 (broadcastInDim S128x1024x96 ![0, 1, 2] bcast_S1x1024x96_S128x1024x96_0_1_2 : (⟨S1x1024x96, .f32⟩ : BufTy).Contents (Elt F) → (⟨S128x1024x96, .f32⟩ : BufTy).Contents (Elt F)),
    binary main_v4 main_v7 main_v8 (addf : (⟨S128x1024x96, .f32⟩ : BufTy).Contents (Elt F) → (⟨S128x1024x96, .f32⟩ : BufTy).Contents (Elt F) → (⟨S128x1024x96, .f32⟩ : BufTy).Contents (Elt F)) ]

set_option maxRecDepth 1024 in
/-- The program is that straight line: with the two functions' bodies written at their calls, both sides are one
    chain of steps once the sequencing is re-associated. -/
theorem main_eq (c : Dev nD) : main (F := F) c = seq ops := by
  simp only [main, fn_take.body, fn_where.body, seq, bind_assoc, pure_bind]

set_option maxRecDepth 8192 in
/-- The operations' fold at the result buffer is `result` of the four arguments' contents: read at the buffer an
    operation writes, the fold is that operation's function of its operands' contents; read anywhere else, it is what
    the earlier operations left. Rewriting so from the last operation back leaves the composition itself. -/
theorem out_eq (V : Valuation τ sig (Elt F)) :
    after ops V (main_v8 : DevRef τ sig)
      = result (V (main_arg0 : DevRef τ sig)) (V (main_arg1 : DevRef τ sig)) (V (main_arg2 : DevRef τ sig))
          (V (main_arg3 : DevRef τ sig)) := by
  unfold result lookup inTable startCol wrapped
  after_results_simp
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem arg2_eq (V : Valuation τ sig (Elt F)) : after ops V (main_arg2 : DevRef τ sig) = V (main_arg2 : DevRef τ sig) := by
  after_results_simp

theorem arg3_eq (V : Valuation τ sig (Elt F)) : after ops V (main_arg3 : DevRef τ sig) = V (main_arg3 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub ..⟩

/-- From any memory with zero counters, every weakly fair execution of the reference terminates with its result
    buffer at `result` of the four argument arrays, and the argument arrays as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v8).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.PatchEncoder.Ref

end
-- ==== Proof.LibDotBatchRows.lean ====
/-
  A batch of matrices against ONE stored [P, K] matrix, read at an index, on the extended reals.

  The dimension numbers contract the left operand's last axis (axis 2 of a [B, N, K] array) with the right operand's
  last axis (axis 1 of a [P, K] array), with no batch axis: the left operand's two free axes come first in the result,
  then the right operand's, so the result is [B, N, P]. Entry (a, n, q) of the host's `dot_general` with these numbers
  is the sum over k of L[a,n,k] · W[q,k]: row (a, n) of L against row q of W — jnp's einsum 'bnd,pd->bnp'. Generic in
  the four extents; the record is any one with these numbers (a printed record is one by `rfl`).
-/
import Idealize.ShloMosaic.PureOps.Ideal.Laws
import Idealize.ShloMosaic.Lib.ValueIdx

noncomputable section

open scoped BigOperators

namespace Cert.DotBatchRows

open Idealize.ShloMosaic Idealize.ShloMosaic.ValueIdx

variable {B N K P : Nat}

/-- The dimension numbers of 'bnd,pd->bnp' over given extents, from the well-formedness a program states. -/
abbrev dims (B N K P : Nat)
    (wf : DotDims.WF ⟨3, ![B, N, K]⟩ ⟨2, ![P, K]⟩ ⟨3, ![B, N, P]⟩ [2] [1] [0, 1] [0] [] []) :
    DotDims ⟨3, ![B, N, K]⟩ ⟨2, ![P, K]⟩ ⟨3, ![B, N, P]⟩ where
  lhsContracting := [2]
  rhsContracting := [1]
  lhsNonContracting := [0, 1]
  rhsNonContracting := [0]
  lhsBatch := []
  rhsBatch := []
  wf := wf

variable (wf : DotDims.WF ⟨3, ![B, N, K]⟩ ⟨2, ![P, K]⟩ ⟨3, ![B, N, P]⟩ [2] [1] [0, 1] [0] [] [])

/-- The left operand's first coordinate is the result's first. -/
theorem lhs0 (i : (⟨3, ![B, N, P]⟩ : Shape).Idx) (k : (dims B N K P wf).contr.Idx) :
    ((dims B N K P wf).lhsIdx i k 0).val = (i 0).val := by
  unfold DotDims.lhsIdx
  rw [dif_neg (show ¬(0 : Fin 3) ∈ (dims B N K P wf).lhsBatch from List.not_mem_nil),
    dif_pos (show (0 : Fin 3) ∈ (dims B N K P wf).lhsNonContracting from List.mem_cons_self)]
  rfl

/-- The left operand's second coordinate is the result's second. -/
theorem lhs1 (i : (⟨3, ![B, N, P]⟩ : Shape).Idx) (k : (dims B N K P wf).contr.Idx) :
    ((dims B N K P wf).lhsIdx i k 1).val = (i 1).val := by
  unfold DotDims.lhsIdx
  rw [dif_neg (show ¬(1 : Fin 3) ∈ (dims B N K P wf).lhsBatch from List.not_mem_nil),
    dif_pos (show (1 : Fin 3) ∈ (dims B N K P wf).lhsNonContracting from
      List.mem_cons_of_mem _ List.mem_cons_self)]
  rfl

/-- The left operand's last coordinate is the contraction's one coordinate. -/
theorem lhs2 (i : (⟨3, ![B, N, P]⟩ : Shape).Idx) (k : (dims B N K P wf).contr.Idx) :
    ((dims B N K P wf).lhsIdx i k 2).val
      = (k ⟨0, Nat.lt_of_lt_of_eq Nat.one_pos (Eq.symm (rfl : (dims B N K P wf).contr.rank = 1))⟩).val :=
  (dims B N K P wf).lhsIdx_val_of_single rfl i k

/-- The right operand's row coordinate is the result's last. -/
theorem rhs0 (i : (⟨3, ![B, N, P]⟩ : Shape).Idx) (k : (dims B N K P wf).contr.Idx) :
    ((dims B N K P wf).rhsIdx i k 0).val = (i 2).val := by
  unfold DotDims.rhsIdx
  rw [dif_neg (show ¬(0 : Fin 2) ∈ (dims B N K P wf).rhsBatch from List.not_mem_nil),
    dif_pos (show (0 : Fin 2) ∈ (dims B N K P wf).rhsNonContracting from List.mem_singleton.mpr rfl)]
  rfl

/-- The right operand's column coordinate is the contraction's one coordinate. -/
theorem rhs1 (i : (⟨3, ![B, N, P]⟩ : Shape).Idx) (k : (dims B N K P wf).contr.Idx) :
    ((dims B N K P wf).rhsIdx i k 1).val
      = (k ⟨0, Nat.lt_of_lt_of_eq Nat.one_pos (Eq.symm (rfl : (dims B N K P wf).contr.rank = 1))⟩).val :=
  (dims B N K P wf).rhsIdx_val_of_single rfl i k

/-- The contraction's sum re-indexed by its one coordinate: row (a, n) of L against row q of W. -/
theorem sum_contr {φ₁ φ₂ : FTy} (L : FVec Ideal ⟨3, ![B, N, K]⟩ φ₁) (W : FVec Ideal ⟨2, ![P, K]⟩ φ₂)
    (a : Fin B) (n : Fin N) (q : Fin P) :
    (∑ k : (dims B N K P wf).contr.Idx,
        L ((dims B N K P wf).lhsIdx (ix3 a n q) k) * W ((dims B N K P wf).rhsIdx (ix3 a n q) k))
      = ∑ k : Fin K, L (ix3 a n k) * W (ix2 q k) := by
  rw [← Equiv.sum_comp (contrEquiv1 (dims B N K P wf) K rfl rfl).symm]
  refine Finset.sum_congr rfl fun k _ => ?_
  have hk := contrEquiv1_symm_val (dims B N K P wf) K rfl rfl k
  have el : (dims B N K P wf).lhsIdx (ix3 a n q) ((contrEquiv1 (dims B N K P wf) K rfl rfl).symm k) = ix3 a n k :=
    funext fun d => Fin.ext (by
      match d with
      | ⟨0, _⟩ => exact lhs0 wf _ _
      | ⟨1, _⟩ => exact lhs1 wf _ _
      | ⟨2, _⟩ => exact (lhs2 wf _ _).trans hk)
  have er : (dims B N K P wf).rhsIdx (ix3 a n q) ((contrEquiv1 (dims B N K P wf) K rfl rfl).symm k) = ix2 q k :=
    funext fun d => Fin.ext (by
      match d with
      | ⟨0, _⟩ => exact rhs0 wf _ _
      | ⟨1, _⟩ => exact (rhs1 wf _ _).trans hk)
  rw [el, er]

/-- THE HOST'S PRODUCT with these dimension numbers, at (a, n, q). -/
theorem dotGeneral_apply {φ₁ φ₂ : FTy} (prec : Option ContractPrecision) (sched : HostSchedule)
    (L : FVec Ideal ⟨3, ![B, N, K]⟩ φ₁) (W : FVec Ideal ⟨2, ![P, K]⟩ φ₂) (a : Fin B) (n : Fin N) (q : Fin P) :
    FloatOps.dotGeneral (dims B N K P wf) prec sched L W (ix3 a n q) = ∑ k : Fin K, L (ix3 a n k) * W (ix2 q k) := by
  rw [Ideal.dotGeneral_apply]
  exact sum_contr wf L W a n q

end Cert.DotBatchRows

end
-- ==== Proof.LibGatherRows.lean ====
/-
  ROW GATHERS READ AT AN INDEX. A table of rows indexed along its first axis by a column of integer positions —
  `table[idx]`, a take along axis 0 — is a gather whose first operand axis is collapsed and start-indexed, whose
  remaining operand axes are the result's offset axes, whose start indices are an [E × 1] array with the index vector on
  axis 1, and which has no batching axes. Result row `e` is the table's row at position `idx[e, 0]`, read as a SIGNED
  integer and CLAMPED into [0, N − 1]: a negative position reads row 0, one past the end reads the last row. Stated for a
  table of rank 2 (rows of `C` entries) and of rank 3 (rows of `H × D` entries), for any dimension-numbers record
  whose fields are the ones above; and, for a position known to be in range, with the clamp gone.
-/
import Idealize.ShloMosaic.PureOps
import Idealize.ShloMosaic.Lib.ValueIdx

namespace Cert.Att.Lib

open Idealize.ShloMosaic Idealize.ShloMosaic.ValueIdx

/-- THE ROW GATHER, RANK 2. For an [N × C] table, an [E × 1] array of start indices and an [E × C] result, with the
    dimension numbers of a take along axis 0 (`hoff` … `hivd`: offset axis 1, collapsed axis 0, no operand batching axes,
    start index map [0], index vector on axis 1 — each closed by `rfl` at a literal record; the slice sizes and the
    start-indices batching axes are not needed, the record's own well-formedness gives what is used of them): the result
    at (e, c) is the table at (r, c), where r is the start index `idx[e, 0]` read signed and clamped into [0, N − 1]. -/
theorem gather_rows2 {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1) (hN : 0 < N)
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  -- the collapsed axis has slice size 1, so the clamp is to N − 1
  have hsl : d.sliceSizes 0 = 1 := d.slice_collapsed 0 (by rw [hcoll]; exact List.mem_singleton.mpr rfl)
  -- with the record's fields substituted, every list of axes below is a literal and computes
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    -- axis 0: start-indexed and collapsed; no batching coordinate, no offset coordinate
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]
    -- the start index is read at (e, 0): the result's batch axis 0 gives the row, the index vector has one component
    refine congrArg (fun z => min (idx z).toInt.toNat (N - 1)) ?_
    funext b
    refine Fin.ext ?_
    match b with
    | ⟨0, _⟩ => rfl
    | ⟨1, _⟩ => rfl
  | ⟨1, _⟩ =>
    -- axis 1: not start-indexed (start 0), not batching; its offset coordinate is the result's coordinate on axis 1
    show GatherDims.start _ (ix2 e c) idx 1 + GatherDims.batchCoord _ (ix2 e c) 1 + GatherDims.offCoord _ (ix2 e c) 1 = c.val
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- THE ROW GATHER, RANK 2, AT A POSITION IN RANGE. When the start index `idx[e, 0]`, read signed, is the row number `n`
    of the table, the clamp does nothing: the result at (e, c) is the table at (n, c). -/
theorem gather_rows2_of_eq {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C)
    (n : Fin N) (hn : (idx (ix2 e 0)).toInt = (n.val : Int)) :
    Host.gather d x idx (ix2 e c) = x (ix2 n c) := by
  have hN : 0 < N := Nat.lt_of_le_of_lt (Nat.zero_le _) n.isLt
  rw [gather_rows2 d hoff hcoll hob hsim hivd hN x idx e c]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

/-- THE ROW GATHER, RANK 3. For an [N × H × D] table, an [E × 1] array of start indices and an [E × H × D] result, with
    the dimension numbers of a take along axis 0 (`hoff` … `hivd`: offset axes 1 and 2, collapsed axis 0, no operand
    batching axes, start index map [0], index vector on axis 1 — each closed by `rfl` at a literal record): the result at
    (e, h, j) is the table at (r, h, j), where r is the start index `idx[e, 0]` read signed and clamped into [0, N − 1]. -/
theorem gather_rows3 {α : Type} {N H D E w : Nat} (d : GatherDims ⟨3, ![N, H, D]⟩ ⟨2, ![E, 1]⟩ ⟨3, ![E, H, D]⟩)
    (hoff : d.offsetDims = [1, 2]) (hcoll : d.collapsedSliceDims = [0]) (hob : d.operandBatchingDims = [])
    (hsim : d.startIndexMap = [0]) (hivd : d.indexVectorDim = 1) (hN : 0 < N)
    (x : (⟨3, ![N, H, D]⟩ : Shape).Idx → α) (idx : IVec ⟨2, ![E, 1]⟩ w) (e : Fin E) (h : Fin H) (j : Fin D) :
    Host.gather d x idx (ix3 e h j) = x (ix3 ⟨min (idx (ix2 e 0)).toInt.toNat (N - 1), by omega⟩ h j) := by
  have hsl : d.sliceSizes 0 = 1 := d.slice_collapsed 0 (by rw [hcoll]; exact List.mem_singleton.mpr rfl)
  obtain ⟨off, coll, ob, sb, sim, ivd, ss, wf⟩ := d
  dsimp only at hoff hcoll hob hsim hivd hsl
  subst hoff hcoll hob hsim hivd
  unfold Host.gather
  congr 1
  funext a
  refine Fin.ext ?_
  match a with
  | ⟨0, _⟩ =>
    -- axis 0: start-indexed and collapsed; no batching coordinate, no offset coordinate
    show GatherDims.start _ (ix3 e h j) idx 0 + GatherDims.batchCoord _ (ix3 e h j) 0 + GatherDims.offCoord _ (ix3 e h j) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (List.mem_singleton.mpr rfl)]
    show min (idx _).toInt.toNat (N - ss 0) = _
    rw [hsl]
    refine congrArg (fun z => min (idx z).toInt.toNat (N - 1)) ?_
    funext b
    refine Fin.ext ?_
    match b with
    | ⟨0, _⟩ => rfl
    | ⟨1, _⟩ => rfl
  | ⟨1, _⟩ =>
    -- axis 1: start 0, no batching; its offset coordinate is the result's coordinate on axis 1
    show GatherDims.start _ (ix3 e h j) idx 1 + GatherDims.batchCoord _ (ix3 e h j) 1 + GatherDims.offCoord _ (ix3 e h j) 1 = h.val
    rw [GatherDims.batchCoord_eq_zero _ _ _ List.not_mem_nil]
    unfold GatherDims.start
    rw [dif_neg (show (1 : Fin 3) ∉ ([0] : List (Fin 3)) by decide)]
    simp only [Nat.add_zero, Nat.zero_add]
    rfl
  | ⟨2, _⟩ =>
    -- axis 2: start 0, no batching; its offset coordinate is the result's coordinate on axis 2
    show GatherDims.start _ (ix3 e h j) idx 2 + GatherDims.batchCoord _ (ix3 e h j) 2 + GatherDims.offCoord _ (ix3 e h j) 2 = j.val
    rw [GatherDims.batchCoord_eq_zero _ _ _ List.not_mem_nil]
    unfold GatherDims.start
    rw [dif_neg (show (2 : Fin 3) ∉ ([0] : List (Fin 3)) by decide)]
    simp only [Nat.add_zero, Nat.zero_add]
    rfl

/-- THE ROW GATHER, RANK 3, AT A POSITION IN RANGE. When the start index `idx[e, 0]`, read signed, is the row number `n`
    of the table, the clamp does nothing: the result at (e, h, j) is the table at (n, h, j). -/
theorem gather_rows3_of_eq {α : Type} {N H D E w : Nat} (d : GatherDims ⟨3, ![N, H, D]⟩ ⟨2, ![E, 1]⟩ ⟨3, ![E, H, D]⟩)
    (hoff : d.offsetDims = [1, 2]) (hcoll : d.collapsedSliceDims = [0]) (hob : d.operandBatchingDims = [])
    (hsim : d.startIndexMap = [0]) (hivd : d.indexVectorDim = 1)
    (x : (⟨3, ![N, H, D]⟩ : Shape).Idx → α) (idx : IVec ⟨2, ![E, 1]⟩ w) (e : Fin E) (h : Fin H) (j : Fin D)
    (n : Fin N) (hn : (idx (ix2 e 0)).toInt = (n.val : Int)) :
    Host.gather d x idx (ix3 e h j) = x (ix3 n h j) := by
  have hN : 0 < N := Nat.lt_of_le_of_lt (Nat.zero_le _) n.isLt
  rw [gather_rows3 d hoff hcoll hob hsim hivd hN x idx e h j]
  have hrow : (⟨min (idx (ix2 e 0)).toInt.toNat (N - 1), by omega⟩ : Fin N) = n := by
    refine Fin.ext ?_
    show min (idx (ix2 e 0)).toInt.toNat (N - 1) = n.val
    have := n.isLt
    omega
  rw [hrow]

end Cert.Att.Lib
-- ==== Proof.LibReduceAnd.lean ====
/-
  A host reduction by `and` over entries that are all 1.

  A one-operand `stablehlo.reduce` of an array of one-bit words by `and`, started from 1, is 1 at every result index
  when every entry of the array is 1 (jnp's `all` of a mask that holds everywhere): the fold meets only ones. Any
  shapes, any reduced axes.
-/
import Idealize.ShloMosaic.PureOps.Reduce

namespace Cert.ReduceAnd

open Idealize.ShloMosaic

/-- A left fold by `and` from 1 over a list whose entries are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_ones f l _ ?_ (fun n hn => hl n (List.mem_cons_of_mem _ hn))
    show IntOp.andi init (f a) = 1#1
    rw [h, hl a List.mem_cons_self]
    rfl

/-- The reduction by `and` from an initial 1 of an array whose every entry is 1, at any result index. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_ones x _ _ hinit (fun i _ => hx i)

end Cert.ReduceAnd
-- ==== Proof.RefValue.lean ====
/-
  The reference's result, on the extended reals, is the encoding.

  Read at (a, n, q): the batched product is the inner product of patch (a, n) with weight row q; the bias, broadcast
  first to 1 × 1 × 96 and then over images and patches, is the bias at q; and the table looked up at the position numbers
  0 … 1023 is the table itself — position n's number n is not negative, so it is not wrapped; it lies in 0 … 1023, so
  the gathered row is kept and the filler never chosen; and the gather at start index n reads row n. Broadcast over the
  images it contributes the table's entry (n, q). The three are added in the encoding's grouping.
-/
import proofs.«117790_g51075751084523_cont_8to1c4_36_5_alg».proof.Proof.RefRun
import proofs.«117790_g51075751084523_cont_8to1c4_36_5_alg».proof.Proof.Encoded
import proofs.«117790_g51075751084523_cont_8to1c4_36_5_alg».proof.Proof.LibDotBatchRows
import proofs.«117790_g51075751084523_cont_8to1c4_36_5_alg».proof.Proof.LibGatherRows
import proofs.«117790_g51075751084523_cont_8to1c4_36_5_alg».proof.Proof.LibReduceAnd
import Idealize.ShloMosaic.Lib.Pipeline.Value
import Idealize.ShloMosaic.Lib.StableHlo.Predicate

noncomputable section

open scoped BigOperators

namespace Cert.PatchEncoder.Ref

open Cert.ReferenceIdeal Cert.ReferenceIdeal.Gen Idealize.ShloMosaic Idealize.ShloMosaic.ValueIdx
open Idealize.ShloMosaic.StableHlo.Predicate

/-- A position number below 1024 as a 32-bit word has that value. -/
theorem toNat_position (n : Fin 1024) : (BitVec.ofNat 32 n.val).toNat = n.val := by
  have := n.isLt
  simp only [BitVec.toNat_ofNat]
  omega

/-- Position n's number is not negative, so wrapping leaves it n. -/
theorem wrapped_iota (n : Fin 1024) : wrapped (iotaInDim S1024 32 0) (ix1 n) = BitVec.ofNat 32 n.val := by
  unfold wrapped
  rw [select_apply]
  have hlt : cmpi .slt (iotaInDim S1024 32 0) (broadcastInDim S1024 ![] bcast_S_S1024 (constantI S_ 32 0#32)) (ix1 n) = 0#1 := by
    refine eq_zero_of_ne_one fun h1 => ?_
    have h2 : IntOp.cmpi .slt (BitVec.ofNat 32 n.val) 0#32 = 1#1 := h1
    rw [slt_iff_toNat (by rw [toNat_position]; have := n.isLt; omega) (by decide)] at h2
    exact Nat.not_lt_zero _ h2
  rw [hlt, select_zero]
  rfl

/-- So the gather's start index for position n is n. -/
theorem startCol_iota (n : Fin 1024) :
    startCol (iotaInDim S1024 32 0) (ix2 n (0 : Fin 1)) = BitVec.ofNat 32 n.val := by
  unfold startCol
  rw [broadcastInDim_apply _ bcast_S1024_S1024x1_0 _ (ix2 n (0 : Fin 1)) (ix1 n) (fun d => by
    match d with
    | ⟨0, _⟩ => rfl)]
  exact wrapped_iota n

/-- Every position's number lies in 0 … 1023. -/
theorem inTable_iota (n : Fin 1024) : inTable (iotaInDim S1024 32 0) (ix1 n) = 1#1 := by
  unfold inTable
  refine Cert.ReduceAnd.reduce_andi_ones _ _ _ _ _ rfl (fun i => ?_)
  obtain ⟨r, z, rfl⟩ : ∃ (r : Fin 1024) (z : Fin 1), i = ix2 r z := ⟨i 0, i 1, eq_ix2 i⟩
  have hz : z = 0 := Subsingleton.elim _ _
  subst hz
  show IntOp.andi (IntOp.cmpi .sge (startCol (iotaInDim S1024 32 0) (ix2 r (0 : Fin 1))) 0#32)
      (IntOp.cmpi .sle (startCol (iotaInDim S1024 32 0) (ix2 r (0 : Fin 1))) 1023#32) = 1#1
  rw [startCol_iota]
  have hr := r.isLt
  have h1 : IntOp.cmpi .sge (BitVec.ofNat 32 r.val) 0#32 = 1#1 :=
    (sge_iff_toNat (by rw [toNat_position]; omega) (by decide)).mpr (Nat.zero_le _)
  have h2 : IntOp.cmpi .sle (BitVec.ofNat 32 r.val) 1023#32 = 1#1 :=
    (sle_iff_toNat (by rw [toNat_position]; omega) (by decide)).mpr (by
      rw [toNat_position]; show r.val ≤ 1023; omega)
  rw [h1, h2]
  rfl

/-- The gather at the position numbers reads each row in place. -/
theorem gather_iota (pos : FVec Ideal S1024x96 .f32) (n : Fin 1024) (q : Fin 96) :
    Host.gather gather_S1024x96_S1024x1_S1024x96_1_0_n_n_0_1_196 pos (startCol (iotaInDim S1024 32 0)) (ix2 n q)
      = pos (ix2 n q) :=
  Cert.Att.Lib.gather_rows2_of_eq gather_S1024x96_S1024x1_S1024x96_1_0_n_n_0_1_196 rfl rfl rfl rfl rfl pos _ n q n (by
    rw [startCol_iota]
    exact toInt_ofNat_small _ (by have := n.isLt; omega))

/-- The table looked up at the position numbers 0 … 1023 is the table. -/
theorem lookup_iota (pos : FVec Ideal S1024x96 .f32) (n : Fin 1024) (q : Fin 96) :
    lookup (F := Ideal) pos (iotaInDim S1024 32 0) (ix2 n q) = pos (ix2 n q) := by
  unfold lookup
  rw [select_apply, broadcastInDim_apply _ bcast_S1024_S1024x96_0 _ (ix2 n q) (ix1 n) (fun d => by
    match d with
    | ⟨0, _⟩ => rfl), inTable_iota, select_one, gather_iota]

/-- The bias broadcast to 1 × 1 × 96 and then over images and patches, at (a, n, q), is the bias at q. -/
theorem bias_apply (b : FVec Ideal S96 .f32) (a : Fin 128) (n : Fin 1024) (q : Fin 96) :
    broadcastInDim S128x1024x96 ![0, 1, 2] bcast_S1x1x96_S128x1024x96_0_1_2
        (broadcastInDim S1x1x96 ![2] bcast_S96_S1x1x96_2 b) (ix3 a n q) = b (ix1 q) := by
  rw [broadcastInDim_apply _ bcast_S1x1x96_S128x1024x96_0_1_2 _ (ix3 a n q) (ix3 (0 : Fin 1) (0 : Fin 1) q) (fun d => by
    match d with
    | ⟨0, _⟩ => rfl
    | ⟨1, _⟩ => rfl
    | ⟨2, _⟩ => rfl)]
  exact broadcastInDim_apply _ bcast_S96_S1x1x96_2 b (ix3 (0 : Fin 1) (0 : Fin 1) q) (ix1 q) (fun d => by
    match d with
    | ⟨0, _⟩ => rfl)

/-- A 1024 × 96 table broadcast to 1 × 1024 × 96 and then over the images, at (a, n, q), is the table at (n, q). -/
theorem table_apply (T : FVec Ideal S1024x96 .f32) (a : Fin 128) (n : Fin 1024) (q : Fin 96) :
    broadcastInDim S128x1024x96 ![0, 1, 2] bcast_S1x1024x96_S128x1024x96_0_1_2
        (broadcastInDim S1x1024x96 ![1, 2] bcast_S1024x96_S1x1024x96_1_2 T) (ix3 a n q) = T (ix2 n q) := by
  rw [broadcastInDim_apply _ bcast_S1x1024x96_S128x1024x96_0_1_2 _ (ix3 a n q) (ix3 (0 : Fin 1) n q) (fun d => by
    match d with
    | ⟨0, _⟩ => rfl
    | ⟨1, _⟩ => rfl
    | ⟨2, _⟩ => rfl)]
  exact broadcastInDim_apply _ bcast_S1024x96_S1x1024x96_1_2 T (ix3 (0 : Fin 1) n q) (ix2 n q) (fun d => by
    match d with
    | ⟨0, _⟩ => rfl
    | ⟨1, _⟩ => rfl)

/-- THE REFERENCE'S RESULT is the encoding of its four arguments. -/
theorem result_eq (x : FVec Ideal S128x1024x768 .f32) (w : FVec Ideal S96x768 .f32) (b : FVec Ideal S96 .f32)
    (pos : FVec Ideal S1024x96 .f32) : result (F := Ideal) x w b pos = encoded x w b pos := by
  funext j
  obtain ⟨a, n, q, rfl⟩ : ∃ (a : Fin 128) (n : Fin 1024) (q : Fin 96), j = ix3 a n q := ⟨j 0, j 1, j 2, eq_ix3 j⟩
  unfold result
  rw [addf_apply, addf_apply, encoded_apply, bias_apply, table_apply, lookup_iota]
  have hdot : Host.dotGeneral dot_S128x1024x768_S96x768_S128x1024x96_2_1_01_0_n_n none x w (ix3 a n q)
      = ∑ k : Fin 768, x (ix3 a n k) * w (ix2 q k) :=
    Cert.DotBatchRows.dotGeneral_apply Facts₀.dot_S128x1024x768_S96x768_S128x1024x96_2_1_01_0_n_n_wf none .single x w a n q
  rw [hdot]

end Cert.PatchEncoder.Ref

end
-- ==== Proof.lean ====
/-
  A patch encoder against its reference: a linear projection of every patch plus a learned position embedding.

  Both programs take a batch of 128 images of 1024 patches of 768 numbers, a 96 × 768 weight matrix, a bias of 96
  numbers and a 1024 × 96 position table, and return the 128 × 1024 × 96 array whose entry (a, n, q) is
  ∑ₖ patch[a,n,k] · W[q,k] + b[q] + pos[n,q] (Proof/Encoded.lean).

  The kernel walks the batch two images at a time; each grid point multiplies its 2048 flattened patch rows against
  the weight rows on the matrix unit, adds the bias row and the position table broadcast over the two images, and
  writes its slab back. Its stored value at an index is read in Proof/Payload.lean, and Proof/KernelValue.lean
  assembles the 64 slabs into the whole result array. The reference computes the product as one batched
  `dot_general`, adds the broadcast bias, looks the position table up at the position numbers 0 … 1023 (an identity
  lookup, through jnp's wrap-and-fill `take`) and adds it broadcast over the images; its run is read back in
  Proof/RefRun.lean and its result identified with the same function in Proof/RefValue.lean. On the extended reals the
  two sides are the same sums in the same grouping, so the inputs' finiteness is never used. The idealized kernel is
  the kernel's own text read at the extended reals (no rewrite), so there is nothing to preserve.
-/
import proofs.«117790_g51075751084523_cont_8to1c4_36_5_alg».proof.Defs
import proofs.«117790_g51075751084523_cont_8to1c4_36_5_alg».proof.Proof.Gen.Kernel
import proofs.«117790_g51075751084523_cont_8to1c4_36_5_alg».proof.Proof.Gen.Kernel.Skeleton
import proofs.«117790_g51075751084523_cont_8to1c4_36_5_alg».proof.Proof.Gen.Kernel.Launch
import proofs.«117790_g51075751084523_cont_8to1c4_36_5_alg».proof.Proof.Gen.Kernel.Points
import proofs.«117790_g51075751084523_cont_8to1c4_36_5_alg».proof.Proof.Gen.Kernel.Frame
import proofs.«117790_g51075751084523_cont_8to1c4_36_5_alg».proof.Proof.Gen.KernelIdeal
import proofs.«117790_g51075751084523_cont_8to1c4_36_5_alg».proof.Proof.Gen.KernelIdeal.Skeleton
import proofs.«117790_g51075751084523_cont_8to1c4_36_5_alg».proof.Proof.Gen.KernelIdeal.Launch
import proofs.«117790_g51075751084523_cont_8to1c4_36_5_alg».proof.Proof.Gen.KernelIdeal.Points
import proofs.«117790_g51075751084523_cont_8to1c4_36_5_alg».proof.Proof.Gen.KernelIdeal.Frame
import proofs.«117790_g51075751084523_cont_8to1c4_36_5_alg».proof.Proof.Gen.KernelIdeal.Value
import proofs.«117790_g51075751084523_cont_8to1c4_36_5_alg».proof.Proof.Gen.ReferenceIdeal
import proofs.«117790_g51075751084523_cont_8to1c4_36_5_alg».proof.Proof.Gen.Pre_finite_inputs
import proofs.«117790_g51075751084523_cont_8to1c4_36_5_alg».proof.Proof.KernelValue
import proofs.«117790_g51075751084523_cont_8to1c4_36_5_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.PatchEncoder.Ref.run (F := Ideal) m ρ)

/-- From memories that agree on the four arguments both programs end with the encoding of those arguments in their
    result arrays. -/
theorem algebraic : Cert.algebraic_KernelIdeal_ReferenceIdeal := by
  intro m ρ m' ρ' _ hagree
  refine ⟨fun c => Cert.PatchEncoder.Ker.enc m c, Cert.PatchEncoder.Ker.run m ρ, ?_⟩
  refine (θ_run Cert.ReferenceIdeal.defs _ _).mono (fun _ h c => ⟨(h c).1.trans ?_, (h c).2⟩)
    (Cert.PatchEncoder.Ref.run (F := Ideal) m' ρ')
  rw [(hagree c).1, (hagree c).2.1, (hagree c).2.2.1, (hagree c).2.2.2]
  exact Cert.PatchEncoder.Ref.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
